-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.CaseValues.lean ====
/-
  What each control case of the kernel body leaves behind, as plain terms of the blocks it was given.

  The body keeps a [1024,1024] accumulator across the grid's last axis. With `x` the [1024,512] block of the
  activations, `w` the [1024,512] block of the weights and `acc` what the accumulator held on entry:
    * first step of a run (k = 0): the accumulator is cleared and then updated, so it ends at `upd x w 0`;
    * a middle step (0 < k < 7): it ends at `upd x w acc`;
    * the last step (k = 7): it ends at `upd x w acc`, and the output block is that plus the bias row,
  where `upd x w a = a + x · sign(w)ᵀ` is the body's second payload and "plus the bias row" its third.
  Each statement holds at every float instance: nothing here looks inside the payloads.
-/
import proofs.«142840_j35905926594624_1_alg».proof.Proof.Gen.KernelIdeal.Frame
import Idealize.ShloMosaic.Lib.Pipeline.Value
import Idealize.ShloMosaic.Lib.Tactic

set_option maxRecDepth 16384

noncomputable section

namespace Cert.KernelIdeal.CaseValues

open Cert.KernelIdeal Cert.KernelIdeal.Gen Idealize.ShloMosaic Idealize.ShloMosaic.TcCoe Idealize.ShloMosaic.Tactic Idealize.SL.Sem

variable {F : FTy → Type} [FloatOps F]

/-- The zero offsets of a rank-2 whole-block access, as the constant function. -/
theorem off2 : (![0, 0] : Fin 2 → Nat) = fun _ => 0 := funext fun a => by fin_cases a <;> rfl
/-- The zero offset of a rank-1 whole-block access. -/
theorem off1 : (![0] : Fin 1 → Nat) = fun _ => 0 := funext fun a => by fin_cases a; rfl

/-- First step of a run: the accumulator is stored as zero, read back, and stored again with the step's product added. -/
theorem acc_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S1024x512 .f32) (x2 : Vec F S1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) off2, View.readCov_unit_zero (S := S1024x1024) _ off2]
  simp only [View.readAt_eq_ld, harg3.read_unread, harg4.read_unread, View.ld_unit_zero (S := S1024x512) off2]

/-- A middle step: one whole store of the entry contents plus the step's product. -/
theorem acc_middle (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S1024x512 .f32) (x2 : Vec F S1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero off2]
  simp only [View.readAt_eq_ld, harg3.read_unread, harg4.read_unread, harg7.read_unread,
    View.ld_unit_zero (S := S1024x512) off2, View.ld_unit_zero (S := S1024x1024) off2]

/-- The last step leaves the accumulator as a middle step does. -/
theorem acc_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero off2]
  simp only [View.readAt_eq_ld, harg3.read_unread, harg4.read_unread, harg7.read_unread,
    View.ld_unit_zero (S := S1024x512) off2, View.ld_unit_zero (S := S1024x1024) off2]

/-- The last step's output block: the updated accumulator, read back, plus the bias row. -/
theorem out_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1024 .f32) (xs0 : Vec F S1024x1024 .f32) :
    out0_C_3 c i arg3 harg3 arg4 harg4 arg5 harg5 arg6 harg6 arg7 harg7 hc0 hc1 x0 x1 x2 xs0 = k0_pay3 x2 (k0_pay2 x0 x1 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero off2, View.readCov_unit_zero (S := S1024x1024) _ off2]
  simp only [View.readAt_eq_ld, harg3.read_unread, harg4.read_unread, harg5.read_unread, harg7.read_unread,
    View.ld_unit_zero (S := S1024x512) off2, View.ld_unit_zero (S := S1024x1024) off2, View.ld_unit_zero (S := S1024) off1]

end Cert.KernelIdeal.CaseValues

end
-- ==== Proof.Spec.lean ====
/-
  The function both programs compute, and the one regrouping of a sum that joins them.

  For activations `X` [8192,4096], weights `W` [4096,4096] and bias `B` [4096] the result at (r, c) is
      ( Σ_{k < 4096}  X[r,k] · s(W[c,k]) )  +  B[c],        s(w) = +1 if w ≥ 0, else −1,
  read on the extended reals. The kernel reaches the same number eight columns-blocks at a time: the inner sum is
  cut into the eight stretches k = 512·b + j (b < 8, j < 512) and the stretches are added one after another into
  an accumulator that starts at 0. Addition on the extended reals is commutative and associative, so cutting and
  re-adding is an identity there and no finiteness of the inputs is used.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.BinaryLinear

open Idealize.ShloMosaic Idealize.ShloMosaic.ValueIdx

/-- The binarized weight: +1 where the weight is at least zero, −1 elsewhere, as a compare against the zero
    word selecting between the words of 1.0 and −1.0. -/
def sgn (w : Ideal .f32) : Ideal .f32 :=
  Scalar.select (FloatOps.cmpf .oge w (FloatOps.ofBits .f32 0x00000000#32))
    (FloatOps.ofBits .f32 0x3F800000#32) (FloatOps.ofBits .f32 0xBF800000#32)

/-- Column `512·b + j` of the contracted axis: the j-th column of the b-th stretch. -/
def col (b : Fin 8) (j : Fin 512) : Fin 4096 := ⟨512 * b.val + j.val, by have := b.isLt; have := j.isLt; omega⟩

theorem col_val (b : Fin 8) (j : Fin 512) : (col b j).val = 512 * b.val + j.val := rfl

/-- The result array: row r of the activations against row c of the binarized weights, plus the bias at c. -/
def linear (X : FVec Ideal ⟨2, ![8192, 4096]⟩ .f32) (W : FVec Ideal ⟨2, ![4096, 4096]⟩ .f32)
    (B : FVec Ideal ⟨1, ![4096]⟩ .f32) : FVec Ideal ⟨2, ![8192, 4096]⟩ .f32 :=
  fun i => (∑ k : Fin 4096, X (ix2 (i 0) k) * sgn (W (ix2 (i 1) k))) + B (ix1 (i 1))

/-- A sum over the 4096 columns is the sum over the eight stretches of the sums inside each stretch. -/
theorem sum_by_stretch {M : Type*} [AddCommMonoid M] (f : Fin 4096 → M) :
    ∑ k : Fin 4096, f k = ∑ b : Fin 8, ∑ j : Fin 512, f (col b j) := by
  rw [← Equiv.sum_comp (finProdFinEquiv : Fin 8 × Fin 512 ≃ Fin 4096) f, Fintype.sum_prod_type]
  refine Finset.sum_congr rfl fun b _ => Finset.sum_congr rfl fun j _ => congrArg f (Fin.ext ?_)
  show j.val + 512 * b.val = 512 * b.val + j.val
  omega

/-- The result written as the kernel accumulates it: zero, plus the eight stretches' partial products, plus the bias. -/
theorem linear_by_stretch (X : FVec Ideal ⟨2, ![8192, 4096]⟩ .f32) (W : FVec Ideal ⟨2, ![4096, 4096]⟩ .f32)
    (B : FVec Ideal ⟨1, ![4096]⟩ .f32) (r : Fin 8192) (c : Fin 4096) :
    linear X W B (ix2 r c)
      = (0 + ∑ b : Fin 8, ∑ j : Fin 512, X (ix2 r (col b j)) * sgn (W (ix2 c (col b j)))) + B (ix1 c) := by
  unfold linear
  rw [zero_add, sum_by_stretch]

end Cert.BinaryLinear

end
-- ==== Proof.Payloads.lean ====
/-
  The kernel body's three stored values, read at one entry of the [1024,1024] block, on the extended reals.

  * the reset value is 0 everywhere;
  * the update of an accumulator `a` by an activation block `x` and a weight block `w` (both [1024,512]) is, at
    (p, q),  a[p,q] + Σ_{j < 512} x[p,j] · s(w[q,j]):  the matrix unit contracts the second axis of both blocks, its
    accumulator operand is the zero splat, the narrowing to bf16 is the identity on the extended reals, and the
    select between the splats of 1.0 and −1.0 under `w ≥ 0` is `s`;
  * the epilogue adds to the accumulator at (p, q) the bias block's entry q (the bias row, made a [1,1024] array and
    repeated down the rows).
-/
import proofs.«142840_j35905926594624_1_alg».proof.Proof.Gen.KernelIdeal.Skeleton
import proofs.«142840_j35905926594624_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx Cert.BinaryLinear

/-- The reset value is zero at every entry. -/
theorem reset_apply (j : S1024x1024.Idx) : k0_pay1 (F := Ideal) j = 0 := by
  unfold k0_pay1
  rw [shapeCast_self]
  exact Ideal.ofBits_zero_f32

/-! The matrix unit's operand indices at output entry `i` and contraction index `q`: the left operand is read at
    (i₀, q), the right one at (i₁, q). -/

theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product of an activation block with the transposed binarized weight block, into the zero accumulator, at
    entry (p, q): the sum over the 512 shared columns. -/
theorem product_apply (lhs rhs : FVec Ideal S1024x512 .bf16) (p q : Fin 1024) :
    FloatOps.matmul dot_S1024x512_S1024x512_S1024x1024_1_1_0_0_n_n none lhs rhs (constant S1024x1024 .f32 0x00000000#32) (ix2 p q)
      = ∑ j : Fin 512, lhs (ix2 p j) * rhs (ix2 q j) := by
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-- The update at entry (p, q): the accumulator there plus the stretch's partial product. -/
theorem update_apply (x w : Vec Ideal S1024x512 .f32) (acc : Vec Ideal S1024x1024 .f32) (p q : Fin 1024) :
    k0_pay2 x w acc (ix2 p q) = acc (ix2 p q) + ∑ j : Fin 512, x (ix2 p j) * sgn (w (ix2 q j)) := by
  unfold k0_pay2
  rw [shapeCast_self]
  refine (ValueIdx.addf_apply _ _ _).trans ?_
  refine congrArg (acc (ix2 p q) + ·) ?_
  refine (product_apply _ _ p q).trans ?_
  rfl

/-- The epilogue at entry (p, q): the accumulator there plus the bias block's entry q. -/
theorem epilogue_apply (b : Vec Ideal S1024 .f32) (acc : Vec Ideal S1024x1024 .f32) (p q : Fin 1024) :
    k0_pay3 b acc (ix2 p q) = acc (ix2 p q) + b (ix1 q) := by
  unfold k0_pay3
  refine (ValueIdx.addf_apply _ _ _).trans ?_
  refine congrArg (acc (ix2 p q) + ·) ?_
  rw [broadcastTo_1b_ab_apply, shapeCast_a_1a_apply]

end Cert.KernelIdeal.Payloads

end
-- ==== Proof.Accumulate.lean ====
/-
  The accumulator over a run of eight grid points, and the block the run's last point writes.

  Points 8·g … 8·g + 7 share one output block (row-block and column-block fixed, the stretch counting up). Point n
  adds to every entry (p, q) of the accumulator its ADDEND: the partial product Σ_{j < 512} x_n[p,j] · s(w_n[q,j])
  of that point's activation and weight blocks. The first point of the run starts from 0, so after point 8·g + d the
  accumulator is 0 plus the addends of points 8·g … 8·g + d, and the last point (d = 7) writes that sum plus the bias
  block's entry q into the output block.
-/
import proofs.«142840_j35905926594624_1_alg».proof.Proof.Gen.KernelIdeal.Value
import proofs.«142840_j35905926594624_1_alg».proof.Proof.CaseValues
import proofs.«142840_j35905926594624_1_alg».proof.Proof.Payloads
import Idealize.ShloMosaic.Lib.Pipeline.Value

set_option maxRecDepth 16384

noncomputable section

namespace Cert.KernelIdeal.Accumulate

open Cert.KernelIdeal Cert.KernelIdeal.Gen Cert.KernelIdeal.Value Cert.KernelIdeal.CaseValues Cert.KernelIdeal.Payloads
open Idealize.ShloMosaic Idealize.ShloMosaic.TcCoe Idealize.ShloMosaic.ValueIdx Idealize.SL.Sem Cert.BinaryLinear

variable (m : (ℓ : Loc nD τ sig) → Buf (Elt Ideal) ℓ)

/-- The activation, weight and bias blocks at a grid point, at their literal types. -/
abbrev xblk (c : Dev nD) (t : Fin cfg0.N) : Vec Ideal S1024x512 .f32 := iblk m c 0 t
abbrev wblk (c : Dev nD) (t : Fin cfg0.N) : Vec Ideal S1024x512 .f32 := iblk m c 1 t
abbrev bblk (c : Dev nD) (t : Fin cfg0.N) : Vec Ideal S1024 .f32 := iblk m c 2 t

/-- Point n's addend at block entry (p, q): row p of its activation block against row q of its weight block under `s`
    (zero for a number that is no grid point; never used there). -/
def addend (c : Dev nD) (n : ℕ) (p q : Fin 1024) : EReal :=
  if h : n < cfg0.N then ∑ j : Fin 512, xblk m c ⟨n, h⟩ (ix2 p j) * sgn (wblk m c ⟨n, h⟩ (ix2 q j)) else 0

/-- The first point of a run leaves 0 plus its addend, whatever the accumulator held before. -/
theorem first_step (c : Dev nD) (n : ℕ) (h : n < cfg0.N) (h0 : n % 8 = 0) (p q : Fin 1024) :
    scAt0_0 m c n h (VS0_0.read (Elt Ideal) VS0_0.junk) (ix2 p q) = 0 + addend m c n p q := by
  have h1 : ¬n % 8 = 7 := by omega
  unfold scAt0_0
  rw [dif_pos h0, dif_neg h1]
  refine (congrFun (acc_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _)
    ((hcond0_0 (⟨n, h⟩ : Fin cfg0.N)).mpr h0) (fun hh => h1 ((hcond0_1 (⟨n, h⟩ : Fin cfg0.N)).mp hh))
    (iblk m c 0 (⟨n, h⟩ : Fin cfg0.N)) (iblk m c 1 (⟨n, h⟩ : Fin cfg0.N)) (iblk m c 2 (⟨n, h⟩ : Fin cfg0.N))) (ix2 p q)).trans ?_
  refine (update_apply (iblk m c 0 (⟨n, h⟩ : Fin cfg0.N)) (iblk m c 1 (⟨n, h⟩ : Fin cfg0.N)) (k0_pay1 (F := Ideal)) p q).trans ?_
  rw [reset_apply]
  unfold addend
  rw [dif_pos h]

/-- Every later point of a run adds its addend to what the point before left. -/
theorem later_step (c : Dev nD) (n : ℕ) (h : n < cfg0.N) (h0 : ¬n % 8 = 0) (acc : Vec Ideal S1024x1024 .f32) (p q : Fin 1024) :
    scAt0_0 m c n h acc (ix2 p q) = acc (ix2 p q) + addend m c n p q := by
  unfold scAt0_0
  rw [dif_neg h0]
  by_cases h1 : n % 8 = 7
  · rw [dif_pos h1]
    refine (congrFun (acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _)
      (fun hh => h0 ((hcond0_0 (⟨n, h⟩ : Fin cfg0.N)).mp hh)) ((hcond0_1 (⟨n, h⟩ : Fin cfg0.N)).mpr h1)
      (iblk m c 0 (⟨n, h⟩ : Fin cfg0.N)) (iblk m c 1 (⟨n, h⟩ : Fin cfg0.N)) (iblk m c 2 (⟨n, h⟩ : Fin cfg0.N)) acc) (ix2 p q)).trans ?_
    refine (update_apply (iblk m c 0 (⟨n, h⟩ : Fin cfg0.N)) (iblk m c 1 (⟨n, h⟩ : Fin cfg0.N)) acc p q).trans ?_
    unfold addend
    rw [dif_pos h]
  · rw [dif_neg h1]
    refine (congrFun (acc_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _)
      (fun hh => h0 ((hcond0_0 (⟨n, h⟩ : Fin cfg0.N)).mp hh)) (fun hh => h1 ((hcond0_1 (⟨n, h⟩ : Fin cfg0.N)).mp hh))
      (iblk m c 0 (⟨n, h⟩ : Fin cfg0.N)) (iblk m c 1 (⟨n, h⟩ : Fin cfg0.N)) (iblk m c 2 (⟨n, h⟩ : Fin cfg0.N)) acc) (ix2 p q)).trans ?_
    refine (update_apply (iblk m c 0 (⟨n, h⟩ : Fin cfg0.N)) (iblk m c 1 (⟨n, h⟩ : Fin cfg0.N)) acc p q).trans ?_
    unfold addend
    rw [dif_pos h]

/-- After point t the accumulator holds 0 plus the addends of its run's points up to t. -/
theorem accumulator_after (c : Dev nD) (t : Fin cfg0.N) (p q : Fin 1024) :
    (outsAt0 m c t.val t.isLt).2 (ix2 p q)
      = 0 + ∑ d ∈ Finset.range (t.val % 8 + 1), addend m c (8 * (t.val / 8) + d) p q := by
  refine (congrFun (soutsAt0_0_eq m c t) (ix2 p q)).trans ?_
  exact Pipeline.accAt_add_apply (β := EReal)
    (fun n h => scAt0_0 m c n h (VS0_0.read (Elt Ideal) VS0_0.junk)) (scAt0_0 m c) (fun _ => 0)
    (fun n i => addend m c n (i 0) (i 1)) (8 * (t.val / 8)) 7
    (fun h i => (congrArg (scAt0_0 m c _ h (VS0_0.read (Elt Ideal) VS0_0.junk)) (eq_ix2 i)).trans
      (first_step m c _ h (by omega) (i 0) (i 1)))
    (fun n h acc i hb he => (congrArg (scAt0_0 m c n h acc) (eq_ix2 i)).trans
      ((later_step m c n h (by omega) acc (i 0) (i 1)).trans
        (congrArg (fun z => acc z + addend m c n (i 0) (i 1)) (eq_ix2 i).symm)))
    (t.val % 8) (by omega) _ (ix2 p q)

/-- The block a run's last point writes: at (p, q), 0 plus the run's eight addends, plus the bias block's entry q. -/
theorem written_block (c : Dev nD) (t : Fin cfg0.N) (h7 : t.val % 8 = 7) (p q : Fin 1024) :
    (outsAt0 m c t.val t.isLt).1 (ix2 p q)
      = (0 + ∑ d ∈ Finset.range 8, addend m c (8 * (t.val / 8) + d) p q)
        + bblk m c t (ix1 q) := by
  have h0 : ¬t.val % 8 = 0 := by omega
  have e := outsAt0_C m c t h0 h7
  have e1 : (outsAt0 m c t.val t.isLt).1 = k0_pay3 (iblk m c 2 t) (k0_pay2 (iblk m c 0 t) (iblk m c 1 t)
      (outsAt0 m c (t.val - 1) (Nat.lt_of_le_of_lt (Nat.sub_le _ _) t.isLt)).2) := by
    rw [e]; dsimp only
    exact out_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h7)
      (iblk m c 0 t) (iblk m c 1 t) (iblk m c 2 t) (outsAt0 m c (t.val - 1) (Nat.lt_of_le_of_lt (Nat.sub_le _ _) t.isLt)).2
  have e2 : (outsAt0 m c t.val t.isLt).2 = k0_pay2 (iblk m c 0 t) (iblk m c 1 t)
      (outsAt0 m c (t.val - 1) (Nat.lt_of_le_of_lt (Nat.sub_le _ _) t.isLt)).2 := by
    rw [e]; dsimp only
    exact acc_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h7)
      (iblk m c 0 t) (iblk m c 1 t) (iblk m c 2 t) (outsAt0 m c (t.val - 1) (Nat.lt_of_le_of_lt (Nat.sub_le _ _) t.isLt)).2
  refine (congrFun e1 (ix2 p q)).trans ((epilogue_apply _ _ p q).trans ?_)
  refine congrArg (· + bblk m c t (ix1 q)) ?_
  refine (congrFun e2 (ix2 p q)).symm.trans ((accumulator_after m c t p q).trans ?_)
  rw [h7]

end Cert.KernelIdeal.Accumulate

end
-- ==== Proof.Blocks.lean ====
/-
  Where each window's block sits in its array.

  The grid is 8 × 4 × 8 in row-major order: point `t` has row-block `t / 32`, column-block `(t / 8) % 4` and
  stretch `t % 8`. At that point the activation block is rows 1024·(t/32) … and columns 512·(t%8) … of the
  activations, the weight block is rows 1024·((t/8)%4) … and the same columns of the weights, the bias block is
  entries 1024·((t/8)%4) … of the bias, and the output block is rows 1024·(t/32) …, columns 1024·((t/8)%4) … of
  the result. An entry of a block is the array's entry at block index × block size + the entry's own coordinate.
-/
import proofs.«142840_j35905926594624_1_alg».proof.Proof.Gen.KernelIdeal.Frame
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The four index maps at every grid point, from the point's row-major position. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 1) = t.val / 8 % 4
    ∧ win0_3.index t (0 : Fin 2) = t.val / 32 ∧ win0_3.index t (1 : Fin 2) = t.val / 8 % 4 :=
  (by decide +kernel : ∀ t : Fin grid0.N, _)

/-- Entry (p, j) of the activation block at point `t` is the activations' entry (1024·(t/32) + p, 512·(t%8) + j). -/
theorem x_block (c : Dev nD) (t : Fin cfg0.N) (p : Fin 1024) (j : Fin 512) (r : Fin 8192) (k : Fin 4096)
    (hr : r.val = 1024 * (t.val / 32) + p.val) (hk : k.val = 512 * (t.val % 8) + j.val) :
    (iblk m c 0 t : Vec F S1024x512 .f32) (ix2 p j) = m ((c : Thread nD τ).loc main_arg0) (ix2 r k) := by
  obtain ⟨e0, e1, -⟩ := index_facts t
  unfold iblk
  rw [View.read_apply]
  show V m c main_arg0 _ = m (c.tc.loc main_arg0) _
  unfold V
  congr 1
  funext a
  apply Fin.ext
  match a with
  | ⟨0, _⟩ => show win0_0.index t 0 * 1024 + 1 * p.val = r.val; rw [e0, hr]; omega
  | ⟨1, _⟩ => show win0_0.index t 1 * 512 + 1 * j.val = k.val; rw [e1, hk]; omega

/-- Entry (q, j) of the weight block at point `t` is the weights' entry (1024·((t/8)%4) + q, 512·(t%8) + j). -/
theorem w_block (c : Dev nD) (t : Fin cfg0.N) (q : Fin 1024) (j : Fin 512) (cc : Fin 4096) (k : Fin 4096)
    (hc : cc.val = 1024 * (t.val / 8 % 4) + q.val) (hk : k.val = 512 * (t.val % 8) + j.val) :
    (iblk m c 1 t : Vec F S1024x512 .f32) (ix2 q j) = m ((c : Thread nD τ).loc main_arg1) (ix2 cc k) := by
  obtain ⟨-, -, e0, e1, -⟩ := index_facts t
  unfold iblk
  rw [View.read_apply]
  show V m c main_arg1 _ = m (c.tc.loc main_arg1) _
  unfold V
  congr 1
  funext a
  apply Fin.ext
  match a with
  | ⟨0, _⟩ => show win0_1.index t 0 * 1024 + 1 * q.val = cc.val; rw [e0, hc]; omega
  | ⟨1, _⟩ => show win0_1.index t 1 * 512 + 1 * j.val = k.val; rw [e1, hk]; omega

/-- Entry q of the bias block at point `t` is the bias entry 1024·((t/8)%4) + q. -/
theorem b_block (c : Dev nD) (t : Fin cfg0.N) (q : Fin 1024) (cc : Fin 4096)
    (hc : cc.val = 1024 * (t.val / 8 % 4) + q.val) :
    (iblk m c 2 t : Vec F S1024 .f32) (ix1 q) = m ((c : Thread nD τ).loc main_arg2) (ix1 cc) := by
  obtain ⟨-, -, -, -, e0, -⟩ := index_facts t
  unfold iblk
  rw [View.read_apply]
  show V m c main_arg2 _ = m (c.tc.loc main_arg2) _
  unfold V
  congr 1
  funext a
  apply Fin.ext
  match a with
  | ⟨0, _⟩ => show win0_2.index t 0 * 1024 + 1 * q.val = cc.val; rw [e0, hc]; omega

end Cert.KernelIdeal.Blocks

end
-- ==== Proof.Result.lean ====
/-
  The kernel's result array is `linear` of its three arguments.

  A run's last point (row-block a, column-block b) writes, at entry (p, q) of its block, 0 plus the eight stretches'
  partial products of row 1024·a + p of the activations with row 1024·b + q of the binarized weights, plus the bias
  at 1024·b + q: that is `linear` at (1024·a + p, 1024·b + q), the sum over the 4096 columns cut into its eight
  stretches. The 8 × 4 output blocks tile the [8192,4096] result, each written once, by the last point of its run,
  so the whole array ends at `linear`.
-/
import proofs.«142840_j35905926594624_1_alg».proof.Proof.Accumulate
import proofs.«142840_j35905926594624_1_alg».proof.Proof.Blocks

set_option maxRecDepth 16384

noncomputable section

namespace Cert.KernelIdeal.Result

open Cert.KernelIdeal Cert.KernelIdeal.Gen Cert.KernelIdeal.Value Cert.KernelIdeal.Accumulate Cert.KernelIdeal.Blocks
open Idealize.ShloMosaic Idealize.ShloMosaic.TcCoe Idealize.ShloMosaic.ValueIdx Idealize.SL.Sem Cert.BinaryLinear
open Idealize.ShloMosaic.Pipeline (Dat)

variable (m : (ℓ : Loc nD τ sig) → Buf (Elt Ideal) ℓ) (ρ : Dev nD → PrngReg)

/-- The three argument arrays as launched, at their literal types. -/
abbrev argX (c : Dev nD) : FVec Ideal ⟨2, ![8192, 4096]⟩ .f32 := m ((c : Thread nD τ).loc main_arg0)
abbrev argW (c : Dev nD) : FVec Ideal ⟨2, ![4096, 4096]⟩ .f32 := m ((c : Thread nD τ).loc main_arg1)
abbrev argB (c : Dev nD) : FVec Ideal ⟨1, ![4096]⟩ .f32 := m ((c : Thread nD τ).loc main_arg2)

/-- What the result array holds after the run: `linear` of the three argument arrays as launched. -/
abbrev result (c : Dev nD) : Buf (Elt Ideal) ((c : Thread nD τ).loc main_v0) :=
  linear (argX m c) (argW m c) (argB m c)

/-- The addend of the d-th point of t's run is the d-th stretch of the row-against-row sum. -/
theorem addend_eq (c : Dev nD) (t : Fin cfg0.N) (d : Fin 8) (p q : Fin 1024) (r : Fin 8192) (cc : Fin 4096)
    (hr : r.val = 1024 * (t.val / 32) + p.val) (hc : cc.val = 1024 * (t.val / 8 % 4) + q.val) :
    addend m c (8 * (t.val / 8) + d.val) p q
      = ∑ j : Fin 512, argX m c (ix2 r (col d j)) * sgn (argW m c (ix2 cc (col d j))) := by
  have hN : cfg0.N = 256 := N_0
  have ht : t.val < 256 := lt_of_lt_of_eq t.isLt hN
  have hd : d.val < 8 := d.isLt
  have hn : 8 * (t.val / 8) + d.val < cfg0.N := lt_of_lt_of_eq (show 8 * (t.val / 8) + d.val < 256 by omega) hN.symm
  unfold addend
  rw [dif_pos hn]
  refine Finset.sum_congr rfl fun j _ => ?_
  have hj : j.val < 512 := j.isLt
  have hk : (col d j).val = 512 * ((8 * (t.val / 8) + d.val) % 8) + j.val := by rw [col_val]; omega
  exact congrArg₂ (fun (a b : EReal) => a * sgn b)
    (x_block m c ⟨8 * (t.val / 8) + d.val, hn⟩ p j r (col d j)
      (by show r.val = 1024 * ((8 * (t.val / 8) + d.val) / 32) + p.val; omega) hk)
    (w_block m c ⟨8 * (t.val / 8) + d.val, hn⟩ q j cc (col d j)
      (by show cc.val = 1024 * ((8 * (t.val / 8) + d.val) / 8 % 4) + q.val; omega) hk)

/-- Entry (p, q) of the block a run's last point writes is `linear` at the entry's place in the array. -/
theorem written_entry (c : Dev nD) (t : Fin cfg0.N) (h7 : t.val % 8 = 7) (p q : Fin 1024) (r : Fin 8192) (cc : Fin 4096)
    (hr : r.val = 1024 * (t.val / 32) + p.val) (hc : cc.val = 1024 * (t.val / 8 % 4) + q.val) :
    (outsAt0 m c t.val t.isLt).1 (ix2 p q) = result m c (ix2 r cc) := by
  refine (written_block m c t h7 p q).trans ?_
  refine Eq.trans ?_ (linear_by_stretch _ _ _ r cc).symm
  refine congrArg₂ (fun (a b : EReal) => (0 + a) + b) ?_ (b_block m c t q cc hc)
  rw [Finset.sum_range (fun d => addend m c (8 * (t.val / 8) + d) p q)]
  exact Finset.sum_congr rfl fun d _ => addend_eq m c t d p q r cc hr hc

/-- The same over any block entry and any array index that sits at the entry's place. -/
theorem written_at (c : Dev nD) (t : Fin cfg0.N) (h7 : t.val % 8 = 7) (y : S1024x1024.Idx) (i : S8192x4096.Idx)
    (h0 : (i 0).val = 1024 * (t.val / 32) + (y 0).val) (h1 : (i 1).val = 1024 * (t.val / 8 % 4) + (y 1).val) :
    (outsAt0 m c t.val t.isLt).1 y = result m c i :=
  (congrArg (outsAt0 m c t.val t.isLt).1 (eq_ix2 y)).trans
    ((written_entry m c t h7 (y 0) (y 1) (i 0) (i 1) h0 h1).trans (congrArg (result m c) (eq_ix2 i).symm))

/-- What a flushing point writes back is its block of `linear`. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  obtain ⟨-, -, -, -, -, e0, e1⟩ := index_facts t
  rw [flushed3]
  funext y
  show (outsAt0 m c t.val t.isLt).1 y = result m c (((cfg0.win 3).blk t).view.emb y)
  refine written_at m c t h7 y _ ?_ ?_
  · show win0_3.index t (0 : Fin 2) * 1024 + 1 * (y 0).val = 1024 * (t.val / 32) + (y 0).val
    rw [e0]; omega
  · show win0_3.index t (1 : Fin 2) * 1024 + 1 * (y 1).val = 1024 * (t.val / 8 % 4) + (y 1).val
    rw [e1]; omega

/-- An index of the result array is in point t's block iff each coordinate is in the block's range on its axis. -/
theorem mem_block (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- Every index of the result array lies in the block of the last point of some run. -/
theorem covered (i : S8192x4096.Idx) :
    ∃ t : Fin cfg0.N, (cfg0.win 3).flush t = true ∧ i ∈ ((cfg0.win 3).blk t).view.set := by
  have hN : cfg0.N = 256 := N_0
  have hi0 : (i 0).val < 8192 := (i 0).isLt
  have hi1 : (i 1).val < 4096 := (i 1).isLt
  have hlt : ((i 0).val / 1024 * 4 + (i 1).val / 1024) * 8 + 7 < cfg0.N :=
    lt_of_lt_of_eq (show ((i 0).val / 1024 * 4 + (i 1).val / 1024) * 8 + 7 < 256 by omega) hN.symm
  refine ⟨⟨((i 0).val / 1024 * 4 + (i 1).val / 1024) * 8 + 7, hlt⟩, (flush0_3 _).mpr (by show (((i 0).val / 1024 * 4 + (i 1).val / 1024) * 8 + 7) % 8 = 7; omega), ?_⟩
  obtain ⟨-, -, -, -, -, e0, e1⟩ := index_facts ⟨((i 0).val / 1024 * 4 + (i 1).val / 1024) * 8 + 7, hlt⟩
  have f0 : (((i 0).val / 1024 * 4 + (i 1).val / 1024) * 8 + 7) / 32 = (i 0).val / 1024 := by omega
  have f1 : (((i 0).val / 1024 * 4 + (i 1).val / 1024) * 8 + 7) / 8 % 4 = (i 1).val / 1024 := by omega
  rw [mem_block]
  intro a
  match a with
  | ⟨0, _⟩ =>
    show win0_3.index _ (0 : Fin 2) * 1024 ≤ (i 0).val ∧ (i 0).val < win0_3.index _ (0 : Fin 2) * 1024 + 1024
    rw [e0]; show _ / 32 * 1024 ≤ _ ∧ _ < _ / 32 * 1024 + 1024; rw [f0]; omega
  | ⟨1, _⟩ =>
    show win0_3.index _ (1 : Fin 2) * 1024 ≤ (i 1).val ∧ (i 1).val < win0_3.index _ (1 : Fin 2) * 1024 + 1024
    rw [e1]; show _ / 8 % 4 * 1024 ≤ _ ∧ _ < _ / 8 % 4 * 1024 + 1024; rw [f1]; omega

/-- The result array after the run. -/
theorem final (c : Dev nD) : (dats m 0 c).arrAt 3 cfg0.N = result m c :=
  (dats m 0 c).arrAt_eq_of_cover 3 (result m c) (flushed_eq m c) covered

/-- Every weakly fair execution of the idealized kernel terminates with the result array at `linear` of the
    arguments and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Result

end
-- ==== Proof.Reference.lean ====
/-
  The reference's result is the function `linear` of its three arguments.

  The host program binarizes the weights (a compare against a zero splat selecting between splats of 1.0 and −1.0),
  transposes them, contracts the activations' second axis with the transposed array's first, and adds the bias
  repeated down the rows. Read at entry (r, c): the contraction is Σ_k X[r,k] · Wᵀ_bin[k,c] = Σ_k X[r,k] · s(W[c,k]),
  and the broadcast bias is B[c].
-/
import proofs.«142840_j35905926594624_1_alg».proof.Proof.Gen.ReferenceIdeal.Read
import proofs.«142840_j35905926594624_1_alg».proof.Proof.Spec

noncomputable section

namespace Cert.ReferenceIdeal.RefValue

open Cert.ReferenceIdeal Cert.ReferenceIdeal.Read Idealize.ShloMosaic Idealize.ShloMosaic.ValueIdx Cert.BinaryLinear

/-- The last stage of the host program, at the extended reals, is `linear`. -/
theorem reference_is_linear (x0 : (⟨S8192x4096, .f32⟩ : BufTy).Contents (Elt Ideal))
    (x1 : (⟨S4096x4096, .f32⟩ : BufTy).Contents (Elt Ideal)) (x2 : (⟨S4096, .f32⟩ : BufTy).Contents (Elt Ideal)) :
    val_main_v8 (F := Ideal) x0 x1 x2 = linear x0 x1 x2 := by
  funext i
  rw [val_main_v8_apply, val_main_v5_apply, val_main_v7_apply, val_main_v6_apply, Ideal.addf_def]
  unfold linear
  have eb : idx_main_v6 (idx_main_v7 i) = ix1 (i 1) := funext fun a => Fin.ext (by
    match a with
    | ⟨0, _⟩ => rfl)
  rw [eb]
  refine congrArg (· + x2 (ix1 (i 1))) (Finset.sum_congr rfl fun k _ => ?_)
  rw [val_main_v4_apply, val_main_v3_apply, val_main_v2_apply, val_main_v1_apply, val_main_v0_apply, val_main_cst_apply,
    val_main_call0_v0_apply, val_main_cst_0_apply, val_main_call0_v1_apply, val_main_cst_1_apply]
  have el : lidx_main_v5 i k = ix2 (i 0) k := funext fun a => Fin.ext (by
    match a with
    | ⟨0, _⟩ => rfl
    | ⟨1, _⟩ => rfl)
  have er : idx_main_v4 (ridx_main_v5 i k) = ix2 (i 1) k := funext fun a => Fin.ext (by
    match a with
    | ⟨0, _⟩ => rfl
    | ⟨1, _⟩ => rfl)
  rw [el, er]
  rfl

end Cert.ReferenceIdeal.RefValue

end
-- ==== Proof.lean ====
/-
  A linear layer with binarized weights:  out[r,c] = Σ_k x[r,k] · s(w[c,k]) + bias[c],  s(w) = +1 if w ≥ 0 else −1,
  for x [8192,4096], w [4096,4096], bias [4096].

  The kernel tiles the result into 8 × 4 blocks of [1024,1024] and, for each, walks the 4096 contracted columns in
  eight stretches of 512: it clears a [1024,1024] accumulator at the first stretch, adds at every stretch the product
  of the activations' [1024,512] block with the transposed binarized [1024,512] weight block, and at the last stretch
  writes the accumulator plus the bias row as the output block. The reference binarizes and transposes the whole
  weight array, contracts once over all 4096 columns and adds the broadcast bias.

  On the extended reals the narrowing of the matrix unit's operands is the identity and both programs use the same
  compare-and-select for `s`, so the two results differ only in how one sum of 4096 products is grouped:
      0 + Σ_{b<8} Σ_{j<512} x[r,512b+j] · s(w[c,512b+j])   against   Σ_{k<4096} x[r,k] · s(w[c,k]).
  Addition of extended reals is commutative and associative, so these agree for all inputs; the finiteness of the
  inputs is not used.

  The three runs terminate without fault and leave the arguments unchanged: for the two kernels by the generated
  frame certificates, for the reference by its generated run. The idealization rewrote nothing, so there is nothing
  to preserve.
-/
import proofs.«142840_j35905926594624_1_alg».proof.Defs
import proofs.«142840_j35905926594624_1_alg».proof.Proof.Gen.Kernel
import proofs.«142840_j35905926594624_1_alg».proof.Proof.Gen.Kernel.Skeleton
import proofs.«142840_j35905926594624_1_alg».proof.Proof.Gen.Kernel.Launch
import proofs.«142840_j35905926594624_1_alg».proof.Proof.Gen.Kernel.Points
import proofs.«142840_j35905926594624_1_alg».proof.Proof.Gen.Kernel.Frame
import proofs.«142840_j35905926594624_1_alg».proof.Proof.Gen.KernelIdeal
import proofs.«142840_j35905926594624_1_alg».proof.Proof.Gen.KernelIdeal.Skeleton
import proofs.«142840_j35905926594624_1_alg».proof.Proof.Gen.KernelIdeal.Launch
import proofs.«142840_j35905926594624_1_alg».proof.Proof.Gen.KernelIdeal.Points
import proofs.«142840_j35905926594624_1_alg».proof.Proof.Gen.KernelIdeal.Frame
import proofs.«142840_j35905926594624_1_alg».proof.Proof.Gen.ReferenceIdeal
import proofs.«142840_j35905926594624_1_alg».proof.Proof.Gen.Pre_finite_inputs
import proofs.«142840_j35905926594624_1_alg».proof.Proof.Gen.KernelIdeal.Value
import proofs.«142840_j35905926594624_1_alg».proof.Proof.Gen.ReferenceIdeal.Run
import proofs.«142840_j35905926594624_1_alg».proof.Proof.Gen.ReferenceIdeal.Read
import proofs.«142840_j35905926594624_1_alg».proof.Proof.Result
import proofs.«142840_j35905926594624_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result array at `linear` of those
    arguments: the kernel by its eight-stretch accumulation over the tiling, the reference by its one contraction. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq _ _ _).trans ?_
  refine (Cert.ReferenceIdeal.RefValue.reference_is_linear _ _ _).trans ?_
  show Cert.BinaryLinear.linear _ _ _ = Cert.BinaryLinear.linear _ _ _
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
